-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x4096 : Shape := ⟨3, ![64, 256, 4096]⟩
abbrev S16x256x256 : Shape := ⟨3, ![16, 256, 256]⟩
abbrev S64 : Shape := ⟨1, ![64]⟩
abbrev S_ : Shape := ⟨0, ![]⟩

class Facts : Prop where
  bcast_S_S64x256x4096 : S_.BroadcastsInDim S64x256x4096 (![] : Fin 0 → Fin S64x256x4096.rank)
  reducesTo_S64x256x4096_S_d0_1_2 : S64x256x4096.ReducesTo [0, 1, 2] S_
  h_S_ : 0 < S_.numel
  bcast_S_S16x256x256 : S_.BroadcastsInDim S16x256x256 (![] : Fin 0 → Fin S16x256x256.rank)
  reducesTo_S16x256x256_S_d0_1_2 : S16x256x256.ReducesTo [0, 1, 2] S_
  bcast_S_S64 : S_.BroadcastsInDim S64 (![] : Fin 0 → Fin S64.rank)
  reducesTo_S64_S_d0 : S64.ReducesTo [0] S_

variable [Facts]

def fn {F : FTy → Type} [FloatOps F] (main_arg0 : FVec F S64x256x4096 .f32) (main_arg1 : FVec F S16x256x256 .f32) (main_arg2 : IVec S64 32) : IVec S_ 1 :=
  let main_v0 : FVec F S64x256x4096 .f32 := Host.absf main_arg0
  let main_cst : FVec F S_ .f32 := constant S_ .f32 0x7F800000#32
  let main_v1 : FVec F S64x256x4096 .f32 := broadcastInDim S64x256x4096 ![] bcast_S_S64x256x4096 main_cst
  let main_v2 : IVec S64x256x4096 1 := cmpf .olt main_v0 main_v1
  let main_c : IVec S_ 1 := constantI S_ 1 1#1
  let main_v3 : IVec S_ 1 := (fun x v => Host.reduce IntOp.andi x v reducesTo_S64x256x4096_S_d0_1_2 h_S_) main_v2 main_c
  let main_v4 : FVec F S16x256x256 .f32 := Host.absf main_arg1
  let main_cst_0 : FVec F S_ .f32 := constant S_ .f32 0x7F800000#32
  let main_v5 : FVec F S16x256x256 .f32 := broadcastInDim S16x256x256 ![] bcast_S_S16x256x256 main_cst_0
  let main_v6 : IVec S16x256x256 1 := cmpf .olt main_v4 main_v5
  let main_c_1 : IVec S_ 1 := constantI S_ 1 1#1
  let main_v7 : IVec S_ 1 := (fun x v => Host.reduce IntOp.andi x v reducesTo_S16x256x256_S_d0_1_2 h_S_) main_v6 main_c_1
  let main_v8 : IVec S_ 1 := andi main_v3 main_v7
  let main_c_2 : IVec S_ 32 := constantI S_ 32 0#32
  let main_v9 : IVec S64 32 := broadcastInDim S64 ![] bcast_S_S64 main_c_2
  let main_v10 : IVec S64 1 := cmpi .sge main_arg2 main_v9
  let main_c_3 : IVec S_ 1 := constantI S_ 1 1#1
  let main_v11 : IVec S_ 1 := (fun x v => Host.reduce IntOp.andi x v reducesTo_S64_S_d0 h_S_) main_v10 main_c_3
  let main_v12 : IVec S_ 1 := andi main_v8 main_v11
  main_v12
-- ==== Kernel.lean ====
abbrev S64x256x4096 : Shape := ⟨3, ![64, 256, 4096]⟩
abbrev S16x256x256 : Shape := ⟨3, ![16, 256, 256]⟩
abbrev S64 : Shape := ⟨1, ![64]⟩
abbrev S_ : Shape := ⟨0, ![]⟩
abbrev S2x256x4096 : Shape := ⟨3, ![2, 256, 4096]⟩
abbrev S1 : Shape := ⟨1, ![1]⟩
abbrev S1x256x256 : Shape := ⟨3, ![1, 256, 256]⟩
abbrev S256x256 : Shape := ⟨2, ![256, 256]⟩
abbrev S1x256x1024 : Shape := ⟨3, ![1, 256, 1024]⟩
abbrev S256x1024 : Shape := ⟨2, ![256, 1024]⟩

abbrev nBuf : Space → Nat
  | .hbm => 12
  | .vmem => 5
  | .smem => 1
  | _ => 0

abbrev bufTy : (tb : Table) → Fin (tcTables nBuf tb) → BufTy
  | .hbm, ⟨0, _⟩ => ⟨S64x256x4096, .f32⟩
  | .hbm, ⟨1, _⟩ => ⟨S16x256x256, .f32⟩
  | .hbm, ⟨2, _⟩ => ⟨S64, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S16x256x256, .bf16⟩
  | .hbm, ⟨11, _⟩ => ⟨S64x256x4096, .f32⟩
  | .local _ .vmem, ⟨0, _⟩ => ⟨S2x256x4096, .f32⟩
  | .local _ .vmem, ⟨1, _⟩ => ⟨S2x256x4096, .f32⟩
  | .local _ .vmem, ⟨2, _⟩ => ⟨S16x256x256, .bf16⟩
  | .local _ .vmem, ⟨3, _⟩ => ⟨S2x256x4096, .f32⟩
  | .local _ .vmem, ⟨4, _⟩ => ⟨S2x256x4096, .f32⟩
  | .local _ .smem, ⟨0, _⟩ => ⟨S64, .i32⟩
  | _, _ => ⟨S64x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  ![v2.toNat]
def k0_off2 (v3 : BitVec 32) : Fin 3 → Nat :=
  let v4 : Index := Scalar.indexCast v3
  let c0 : Index := 0#32
  let c0_0 : Index := 0#32
  ![v4.toNat, 0, 0]

def k0_chk1 (v3 : BitVec 32) : Prop :=
  (∀ a, (k0_off2 v3) a + S1x256x256.size a ≤ S16x256x256.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x256x256.size a ≤ S16x256x256.size a := fun v3 k0_hw1 => k0_hw1

def k0_mult1 : BitVec 32 :=
  let c0_i32_1 : BitVec 32 := 0#32
  let c1024_i32 : BitVec 32 := 1024#32
  let v7 : BitVec 32 := Scalar.muli c0_i32_1 c1024_i32
  v7
def k0_off3 (c0_i32_1 : BitVec 32) : Fin 3 → Nat :=
  let c0_2 : Index := 0#32
  let c0_3 : Index := 0#32
  let c1024_i32 : BitVec 32 := 1024#32
  let v7 : BitVec 32 := Scalar.muli c0_i32_1 c1024_i32
  let v8 : BitVec 32 := v7
  let v9 : Index := Scalar.indexCast v8
  ![0, 0, v9.toNat]
def k0_mult2 : BitVec 32 :=
  let c1_i32 : BitVec 32 := 1#32
  let c1024_i32_6 : BitVec 32 := 1024#32
  let v18 : BitVec 32 := Scalar.muli c1_i32 c1024_i32_6
  v18
def k0_mult3 : BitVec 32 :=
  let c2_i32_12 : BitVec 32 := 2#32
  let c1024_i32_13 : BitVec 32 := 1024#32
  let v29 : BitVec 32 := Scalar.muli c2_i32_12 c1024_i32_13
  v29
def k0_mult4 : BitVec 32 :=
  let c3_i32 : BitVec 32 := 3#32
  let c1024_i32_19 : BitVec 32 := 1024#32
  let v40 : BitVec 32 := Scalar.muli c3_i32 c1024_i32_19
  v40
def k0_off4 (i : grid0.Coords) : Fin 1 → Nat :=
  let arg0 : BitVec 32 := BitVec.ofNat 32 (i 0).val
  let c2_i32_25 : BitVec 32 := 2#32
  let v51 : BitVec 32 := Scalar.muli arg0 c2_i32_25
  let c1_i32_26 : BitVec 32 := 1#32
  let v52 : BitVec 32 := Scalar.addi v51 c1_i32_26
  let v53 : Index := Scalar.indexCast v52
  ![v53.toNat]
def k0_off5 (v54 : BitVec 32) : Fin 3 → Nat :=
  let v55 : Index := Scalar.indexCast v54
  let c0_27 : Index := 0#32
  let c0_28 : Index := 0#32
  ![v55.toNat, 0, 0]

def k0_chk2 (v54 : BitVec 32) : Prop :=
  (∀ a, (k0_off5 v54) a + S1x256x256.size a ≤ S16x256x256.size a)
instance k0_chk2.dec : ∀ (v54 : BitVec 32), Decidable (k0_chk2 v54) := fun v54 => decidable_of_iff' _ (Iff.of_eq (k0_chk2.eq_1 v54))
theorem k0_off5_inb : ∀ (v54 : BitVec 32) (k0_hw2 : k0_chk2 v54), ∀ a, (k0_off5 v54) a + S1x256x256.size a ≤ S16x256x256.size a := fun v54 k0_hw2 => k0_hw2

def k0_mult5 : BitVec 32 :=
  let c0_i32_29 : BitVec 32 := 0#32
  let c1024_i32_30 : BitVec 32 := 1024#32
  let v58 : BitVec 32 := Scalar.muli c0_i32_29 c1024_i32_30
  v58
def k0_off6 (c0_i32_29 : BitVec 32) : Fin 3 → Nat :=
  let c1 : Index := 1#32
  let c0_31 : Index := 0#32
  let c1024_i32_30 : BitVec 32 := 1024#32
  let v58 : BitVec 32 := Scalar.muli c0_i32_29 c1024_i32_30
  let v59 : BitVec 32 := v58
  let v60 : Index := Scalar.indexCast v59
  ![1, 0, v60.toNat]
def k0_mult6 : BitVec 32 :=
  let c1_i32_35 : BitVec 32 := 1#32
  let c1024_i32_36 : BitVec 32 := 1024#32
  let v69 : BitVec 32 := Scalar.muli c1_i32_35 c1024_i32_36
  v69
def k0_mult7 : BitVec 32 :=
  let c2_i32_42 : BitVec 32 := 2#32
  let c1024_i32_43 : BitVec 32 := 1024#32
  let v80 : BitVec 32 := Scalar.muli c2_i32_42 c1024_i32_43
  v80
def k0_mult8 : BitVec 32 :=
  let c3_i32_49 : BitVec 32 := 3#32
  let c1024_i32_50 : BitVec 32 := 1024#32
  let v91 : BitVec 32 := Scalar.muli c3_i32_49 c1024_i32_50
  v91
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S64 : S_.BroadcastsInDim S64 (![] : Fin 0 → Fin S64.rank)
  bitsLt_bf16_f32 : FTy.bits .bf16 < FTy.bits .f32
  numel1_S1 : S1.numel = 1
  h_S1x256x256 : 0 < S1x256x256.numel
  shapeCasts_S1x256x256_S256x256 : S1x256x256.ShapeCasts S256x256
  h_S1x256x1024 : 0 < S1x256x1024.numel
  shapeCasts_S1x256x1024_S256x1024 : S1x256x1024.ShapeCasts S256x1024
  shapeCasts_S256x1024_S1x256x1024 : S256x1024.ShapeCasts S1x256x1024
  dot_S256x256_S256x1024_S256x1024_0_0_1_1_n_n_wf : DotDims.WF S256x256 S256x1024 S256x1024 [0] [0] [1] [1] [] []
  hrank0 : 0 < grid0.rank
  k0_off1_inb : ∀ i : grid0.Coords, ∀ a, (k0_off1 i) a + S1.size a ≤ S64.size a
  k0_mult1_dvd : 1024 ∣ k0_mult1.toNat
  k0_off3_inb : ∀ (r : Fin 4), ∀ a, (k0_off3 (BitVec.ofNat 32 r.val)) a + S1x256x1024.size a ≤ S2x256x4096.size a
  k0_mult2_dvd : 1024 ∣ k0_mult2.toNat
  k0_mult3_dvd : 1024 ∣ k0_mult3.toNat
  k0_mult4_dvd : 1024 ∣ k0_mult4.toNat
  k0_off4_inb : ∀ i : grid0.Coords, ∀ a, (k0_off4 i) a + S1.size a ≤ S64.size a
  k0_mult5_dvd : 1024 ∣ k0_mult5.toNat
  k0_off6_inb : ∀ (r : Fin 4), ∀ a, (k0_off6 (BitVec.ofNat 32 r.val)) a + S1x256x1024.size a ≤ S2x256x4096.size a
  k0_mult6_dvd : 1024 ∣ k0_mult6.toNat
  k0_mult7_dvd : 1024 ∣ k0_mult7.toNat
  k0_mult8_dvd : 1024 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x4096.size a ≤ S64x256x4096.size a
  hwx0_0 : ∀ i : grid0.Coords, EltTy.bits .f32 = 32 ∨ (Rect.block (s := S64x256x4096) S2x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256x256.size a ≤ S16x256x256.size a
  hwx0_1 : ∀ i : grid0.Coords, EltTy.bits .bf16 = 32 ∨ (Rect.block (s := S16x256x256) S16x256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x256x4096.size a ≤ S64x256x4096.size a
  hwx0_2 : ∀ i : grid0.Coords, EltTy.bits .f32 = 32 ∨ (Rect.block (s := S64x256x4096) S2x256x4096.size (cc0_transform_2 i) (hinb0_2 i)).WholeWords (EltTy.packing .f32)

variable [Facts₀]

def dot_S256x256_S256x1024_S256x1024_0_0_1_1_n_n : DotDims S256x256 S256x1024 S256x1024 where
  lhsContracting := [0]
  rhsContracting := [0]
  lhsNonContracting := [1]
  rhsNonContracting := [1]
  lhsBatch := []
  rhsBatch := []
  wf := dot_S256x256_S256x1024_S256x1024_0_0_1_1_n_n_wf

abbrev spec0_0 : Pipeline.WinSpec sig grid0.rank :=
  Pipeline.WinSpec.ofSpec (Memref.whole main_arg0) S2x256x4096.size reads0_0 false false 2 stage0_0 sem0_0 nbuf0_0 hstage0_0

abbrev spec0_1 : Pipeline.WinSpec sig grid0.rank :=
  Pipeline.WinSpec.ofSpec (Memref.whole main_v1) S16x256x256.size reads0_1 false true 1 stage0_1 sem0_1 nbuf0_1 hstage0_1

abbrev spec0_2 : Pipeline.WinSpec sig grid0.rank :=
  Pipeline.WinSpec.ofSpec (Memref.whole main_v2) S2x256x4096.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S64x256x4096 : Shape := ⟨3, ![64, 256, 4096]⟩
abbrev S16x256x256 : Shape := ⟨3, ![16, 256, 256]⟩
abbrev S64 : Shape := ⟨1, ![64]⟩
abbrev S_ : Shape := ⟨0, ![]⟩
abbrev S64x1 : Shape := ⟨2, ![64, 1]⟩
abbrev S64x256x256 : Shape := ⟨3, ![64, 256, 256]⟩

abbrev nBuf : Space → Nat
  | .hbm => 13
  | .vmem => 0
  | .smem => 0
  | _ => 0

abbrev bufTy : (tb : Table) → Fin (tcTables nBuf tb) → BufTy
  | .hbm, ⟨0, _⟩ => ⟨S64x256x4096, .f32⟩
  | .hbm, ⟨1, _⟩ => ⟨S16x256x256, .f32⟩
  | .hbm, ⟨2, _⟩ => ⟨S64, .i32⟩
  | .hbm, ⟨3, _⟩ => ⟨S_, .i32⟩
  | .hbm, ⟨4, _⟩ => ⟨S64, .i32⟩
  | .hbm, ⟨5, _⟩ => ⟨S64, .i1⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S64, .i32⟩
  | .hbm, ⟨10, _⟩ => ⟨S64x1, .i32⟩
  | .hbm, ⟨11, _⟩ => ⟨S64x256x256, .f32⟩
  | .hbm, ⟨12, _⟩ => ⟨S64x256x4096, .f32⟩
  | _, _ => ⟨S64x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  gather_S16x256x256_S64x1_S64x256x256_12_0_n_n_0_1_1256256_wf : GatherDims.WF S16x256x256 S64x1 S64x256x256 [1, 2] [0] [] [0] [] 1 ![1, 256, 256]
  dot_S64x256x256_S64x256x4096_S64x256x4096_1_1_2_2_0_0_wf : DotDims.WF S64x256x256 S64x256x4096 S64x256x4096 [1] [1] [2] [2] [0] [0]

variable [Facts₀]

def gather_S16x256x256_S64x1_S64x256x256_12_0_n_n_0_1_1256256 : GatherDims S16x256x256 S64x1 S64x256x256 where
  offsetDims := [1, 2]
  collapsedSliceDims := [0]
  operandBatchingDims := []
  startIndicesBatchingDims := []
  startIndexMap := [0]
  indexVectorDim := 1
  sliceSizes := ![1, 256, 256]
  wf := gather_S16x256x256_S64x1_S64x256x256_12_0_n_n_0_1_1256256_wf
def dot_S64x256x256_S64x256x4096_S64x256x4096_1_1_2_2_0_0 : DotDims S64x256x256 S64x256x4096 S64x256x4096 where
  lhsContracting := [1]
  rhsContracting := [1]
  lhsNonContracting := [2]
  rhsNonContracting := [2]
  lhsBatch := [0]
  rhsBatch := [0]
  wf := dot_S64x256x256_S64x256x4096_S64x256x4096_1_1_2_2_0_0_wf

class Facts : Prop extends Facts₀ where

variable [Facts]
-- ==== Proof.Spec.lean ====
/-
  The function both programs compute, and the two facts about a condition word that the rest rests on.

  out[b, d, t] = ∑ c, W[row b][c, d] · x[b, c, t]   for b < 64, d < 256, t < 4096, c < 256,

  where the table row of batch b is its condition word clipped into [0, 15]: the signed maximum with 0, then the signed
  minimum with 15. A clipped word is at most 15 as a natural number, so it names a row of the 16-row table. For a word
  that is not negative, the other way of choosing the row — add 16 to a negative word, leave the others alone, read the
  result as a signed integer and clamp it into [0, 15] — picks the same row: the word is left alone, and clamping a
  non-negative integer into [0, 15] is the minimum with 15, which is what the clip leaves of it.
-/
import Idealize.ShloMosaic.Lib.ValueIdx
import Idealize.ShloMosaic.PureOps.Ideal

noncomputable section

open scoped BigOperators

namespace Cert.CondMatmul

open Idealize.ShloMosaic Idealize.ShloMosaic.ValueIdx

abbrev SX : Shape := ⟨3, ![64, 256, 4096]⟩
abbrev SW : Shape := ⟨3, ![16, 256, 256]⟩
abbrev SC : Shape := ⟨1, ![64]⟩

/-- A word is negative as a signed integer exactly when its top bit is set. -/
theorem slt_zero_iff (w : BitVec 32) : w.slt 0#32 = true ↔ 2 ^ 31 ≤ w.toNat := by
  have hw := w.isLt
  simp only [BitVec.slt, decide_eq_true_eq, BitVec.toInt]
  split <;> simp <;> omega

/-- Fifteen is below a word, signed, exactly when the word is non-negative and above fifteen. -/
theorem fifteen_slt_iff (w : BitVec 32) : (15#32).slt w = true ↔ 15 < w.toNat ∧ w.toNat < 2 ^ 31 := by
  have hw := w.isLt
  have h15 : (15#32 : BitVec 32).toNat = 15 := rfl
  simp only [BitVec.slt, decide_eq_true_eq, BitVec.toInt, h15]
  split <;> simp <;> omega

/-- Zero is at most a word, signed, exactly when the top bit is clear. -/
theorem zero_sle_iff (w : BitVec 32) : (0#32).sle w = true ↔ w.toNat < 2 ^ 31 := by
  have hw := w.isLt
  have h0 : (0#32 : BitVec 32).toNat = 0 := rfl
  simp only [BitVec.sle, decide_eq_true_eq, BitVec.toInt, h0]
  split <;> simp <;> omega

/-- A condition word clipped into the table's row range: the signed maximum with 0, then the signed minimum with 15. -/
def clip (w : BitVec 32) : BitVec 32 := IntOp.minsi 15#32 (IntOp.maxsi 0#32 w)

/-- The clip as a natural number: 0 for a negative word, else the word or 15, whichever is smaller. -/
theorem clip_toNat (w : BitVec 32) : (clip w).toNat = if 2 ^ 31 ≤ w.toNat then 0 else min w.toNat 15 := by
  unfold clip IntOp.minsi IntOp.maxsi
  by_cases hneg : w.slt 0#32 = true
  · rw [if_pos hneg, if_neg (by decide), if_pos ((slt_zero_iff w).mp hneg)]; rfl
  · rw [if_neg hneg, if_neg (fun h => hneg ((slt_zero_iff w).mpr h))]
    by_cases hbig : (15#32).slt w = true
    · rw [if_pos hbig]
      have := (fifteen_slt_iff w).mp hbig
      show 15 = min w.toNat 15
      omega
    · rw [if_neg hbig]
      have h1 : ¬ (15 < w.toNat ∧ w.toNat < 2 ^ 31) := fun h => hbig ((fifteen_slt_iff w).mpr h)
      have h2 : ¬ 2 ^ 31 ≤ w.toNat := fun h => hneg ((slt_zero_iff w).mpr h)
      omega

/-- A clipped word names a row of the 16-row table. -/
theorem clip_toNat_le (w : BitVec 32) : (clip w).toNat ≤ 15 := by
  rw [clip_toNat]; split <;> omega

/-- For a word that is not negative, wrapping negative words by 16 and then clamping the signed value into [0, 15]
    picks the row the clip picks. -/
theorem wrap_clamp_eq_clip (w : BitVec 32) (h : IntOp.cmpi .sge w 0#32 = 1#1) :
    min (Scalar.select (IntOp.cmpi .slt w 0#32) (IntOp.addi w 16#32) w).toInt.toNat 15 = (clip w).toNat := by
  have hw := w.isLt
  have hpos : w.toNat < 2 ^ 31 := by
    apply (zero_sle_iff w).mp
    have h' : BitVec.ofBool ((0#32).sle w) = 1#1 := h
    cases hb : (0#32).sle w
    · rw [hb] at h'; exact absurd h' (by decide)
    · rfl
  have hnot : w.slt 0#32 = false := by
    cases hb : w.slt 0#32
    · rfl
    · exact absurd ((slt_zero_iff w).mp hb) (by omega)
  have hsel : Scalar.select (IntOp.cmpi .slt w 0#32) (IntOp.addi w 16#32) w = w := by
    have hc : IntOp.cmpi .slt w 0#32 = 0#1 := by
      show BitVec.ofBool (w.slt 0#32) = 0#1
      rw [hnot]; rfl
    rw [hc]
    exact select_zero _ _
  rw [hsel, clip_toNat, if_neg (by omega)]
  have : w.toInt.toNat = w.toNat := by
    simp only [BitVec.toInt]
    split <;> omega
  rw [this]

/-- The table row of batch `b`: its condition word, clipped. -/
def row (cond : SC.Idx → BitVec 32) (b : Fin 64) : Fin 16 :=
  ⟨(clip (cond (ix1 b))).toNat, Nat.lt_succ_of_le (clip_toNat_le _)⟩

/-- The result, index by index: at (b, d, t) the sum over the 256 input channels c of W[row b][c, d] · x[b, c, t]. -/
def G (x : SX.Idx → EReal) (w : SW.Idx → EReal) (cond : SC.Idx → BitVec 32) : SX.Idx → EReal :=
  fun i => ∑ k : Fin 256, w (ix3 (row cond ⟨(i 0).val, (i 0).isLt⟩) k ⟨(i 1).val, (i 1).isLt⟩) * x (ix3 (⟨(i 0).val, (i 0).isLt⟩ : Fin 64) k ⟨(i 2).val, (i 2).isLt⟩)

end Cert.CondMatmul

end
-- ==== Proof.ClipTableBits.lean ====
/-
  The side conditions under which the generated frame of this program is stated hold for every launch memory.

  The kernel's index maps read no word of the prefetched table, so the pipeline's condition on the table is empty. The
  body reads two words of the table at each grid point and assumes of each that, used as a row number, it lies inside the
  16-row weight table. The table is not an argument: the host computes it from the condition array, word by word, as the
  signed maximum with 0 followed by the signed minimum with 15. Such a word is at most 15 as a natural number, so the
  row it names plus the one row the body loads stays inside 16 rows, whatever the condition array holds.
-/
import proofs.«417675_j14851996910143_3_alg».proof.Proof.Gen.Kernel.Frame
import proofs.«417675_j14851996910143_3_alg».proof.Proof.Spec
import Idealize.ShloMosaic.Lib.StableHlo.Run

set_option maxRecDepth 16384

noncomputable section

namespace Cert.Kernel.ClipTable

open Cert.Kernel Cert.Kernel.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The prefetched table, as the region finds it, is the condition array clipped word by word. -/
theorem tbl_eq : tbl m 0 = fun i => Cert.CondMatmul.clip (m (((0 : Dev nD) : Thread nD τ).loc main_arg2) i) := by
  unfold tbl
  show V m 0 main_v0 = _
  unfold V
  simp only [hostOps0, hostOps0_1, hostOps0_2, List.flatten_cons, List.flatten_nil, List.append_nil, List.cons_append,
    List.nil_append]
  after_results
  rfl

/-- A clipped word, as a row number, leaves room for the one row the body loads. -/
theorem chk_clip (w : BitVec 32) :
    ∀ a, (![(Scalar.indexCast (Cert.CondMatmul.clip w)).toNat, 0, 0] : Fin 3 → Nat) a + S1x256x256.size a ≤ S16x256x256.size a := by
  intro a
  have h := Cert.CondMatmul.clip_toNat_le w
  have e : (Scalar.indexCast (Cert.CondMatmul.clip w)).toNat = (Cert.CondMatmul.clip w).toNat := rfl
  fin_cases a <;> simp [e, S1x256x256, S16x256x256] <;> omega

/-- The pipeline's condition on the table: no index map reads it. -/
theorem ok : Ok m := trivial

/-- Both words the body reads at a point are clipped words, so both assumed checks hold at every point. -/
theorem hyps (hO : Ok m) : Hyps m hO := by
  intro c t
  refine ⟨?_, ?_⟩
  · show k0_chk1 (tbl m 0 _)
    rw [tbl_eq]
    exact chk_clip _
  · show k0_chk2 (tbl m 0 _)
    rw [tbl_eq]
    exact chk_clip _

end Cert.Kernel.ClipTable

end
-- ==== Proof.ClipTableIdeal.lean ====
/-
  The side conditions under which the generated frame of this program is stated hold for every launch memory.

  The kernel's index maps read no word of the prefetched table, so the pipeline's condition on the table is empty. The
  body reads two words of the table at each grid point and assumes of each that, used as a row number, it lies inside the
  16-row weight table. The table is not an argument: the host computes it from the condition array, word by word, as the
  signed maximum with 0 followed by the signed minimum with 15. Such a word is at most 15 as a natural number, so the
  row it names plus the one row the body loads stays inside 16 rows, whatever the condition array holds.
-/
import proofs.«417675_j14851996910143_3_alg».proof.Proof.Gen.KernelIdeal.Frame
import proofs.«417675_j14851996910143_3_alg».proof.Proof.Spec
import Idealize.ShloMosaic.Lib.StableHlo.Run

set_option maxRecDepth 16384

noncomputable section

namespace Cert.KernelIdeal.ClipTable

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The prefetched table, as the region finds it, is the condition array clipped word by word. -/
theorem tbl_eq : tbl m 0 = fun i => Cert.CondMatmul.clip (m (((0 : Dev nD) : Thread nD τ).loc main_arg2) i) := by
  unfold tbl
  show V m 0 main_v0 = _
  unfold V
  simp only [hostOps0, hostOps0_1, hostOps0_2, List.flatten_cons, List.flatten_nil, List.append_nil, List.cons_append,
    List.nil_append]
  after_results
  rfl

/-- A clipped word, as a row number, leaves room for the one row the body loads. -/
theorem chk_clip (w : BitVec 32) :
    ∀ a, (![(Scalar.indexCast (Cert.CondMatmul.clip w)).toNat, 0, 0] : Fin 3 → Nat) a + S1x256x256.size a ≤ S16x256x256.size a := by
  intro a
  have h := Cert.CondMatmul.clip_toNat_le w
  have e : (Scalar.indexCast (Cert.CondMatmul.clip w)).toNat = (Cert.CondMatmul.clip w).toNat := rfl
  fin_cases a <;> simp [e, S1x256x256, S16x256x256] <;> omega

/-- The pipeline's condition on the table: no index map reads it. -/
theorem ok : Ok m := trivial

/-- Both words the body reads at a point are clipped words, so both assumed checks hold at every point. -/
theorem hyps (hO : Ok m) : Hyps m hO := by
  intro c t
  refine ⟨?_, ?_⟩
  · show k0_chk1 (tbl m 0 _)
    rw [tbl_eq]
    exact chk_clip _
  · show k0_chk2 (tbl m 0 _)
    rw [tbl_eq]
    exact chk_clip _

end Cert.KernelIdeal.ClipTable

end
-- ==== Proof.KernelTile.lean ====
/-
  One stored tile of the kernel body, read at an index.

  Each of the body's eight stores writes a [1, 256, 1024] tile computed the same way from a [1, 256, 256] slice Wt of the
  weight table and a [1, 256, 1024] slice Xt of the x block: drop the unit axes, contract the two over their FIRST axes
  (the input channel c) into a zero accumulator, and put the unit axis back. At the ideal instance a change of float
  format is the identity and the contraction into zero is the plain sum, so the tile at (0, d, t) is
  ∑ c, Wt[0, c, d] · Xt[0, c, t].
-/
import proofs.«417675_j14851996910143_3_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.TcCoe Idealize.SL.Sem
open Idealize.ShloMosaic.ValueIdx

/-! The contraction's index maps, axis by axis: both operands are contracted over axis 0; axis 1 of the left operand is the
    result's row, axis 1 of the right operand the result's column. -/

theorem lhs_axis0 (i : S256x1024.Idx) (q : dot_S256x256_S256x1024_S256x1024_0_0_1_1_n_n.contr.Idx) :
    (dot_S256x256_S256x1024_S256x1024_0_0_1_1_n_n.lhsIdx i q 0).val = (q ⟨0, by decide⟩).val :=
  dot_S256x256_S256x1024_S256x1024_0_0_1_1_n_n.lhsIdx_val_of_single rfl i q
theorem lhs_axis1 (i : S256x1024.Idx) (q : dot_S256x256_S256x1024_S256x1024_0_0_1_1_n_n.contr.Idx) :
    (dot_S256x256_S256x1024_S256x1024_0_0_1_1_n_n.lhsIdx i q 1).val = (i 0).val := by
  unfold DotDims.lhsIdx
  rw [dif_neg (show ¬(1 : Fin S256x256.rank) ∈ dot_S256x256_S256x1024_S256x1024_0_0_1_1_n_n.lhsBatch by decide), dif_pos (show (1 : Fin S256x256.rank) ∈ dot_S256x256_S256x1024_S256x1024_0_0_1_1_n_n.lhsNonContracting by decide)]
  rfl
theorem rhs_axis0 (i : S256x1024.Idx) (q : dot_S256x256_S256x1024_S256x1024_0_0_1_1_n_n.contr.Idx) :
    (dot_S256x256_S256x1024_S256x1024_0_0_1_1_n_n.rhsIdx i q 0).val = (q ⟨0, by decide⟩).val :=
  dot_S256x256_S256x1024_S256x1024_0_0_1_1_n_n.rhsIdx_val_of_single rfl i q
theorem rhs_axis1 (i : S256x1024.Idx) (q : dot_S256x256_S256x1024_S256x1024_0_0_1_1_n_n.contr.Idx) :
    (dot_S256x256_S256x1024_S256x1024_0_0_1_1_n_n.rhsIdx i q 1).val = (i 1).val := by
  unfold DotDims.rhsIdx
  rw [dif_neg (show ¬(1 : Fin S256x1024.rank) ∈ dot_S256x256_S256x1024_S256x1024_0_0_1_1_n_n.rhsBatch by decide), dif_pos (show (1 : Fin S256x1024.rank) ∈ dot_S256x256_S256x1024_S256x1024_0_0_1_1_n_n.rhsNonContracting by decide)]
  rfl

/-- The contraction into the zero accumulator at (d, t): the sum over the channel c of A[c, d] · B[c, t]. -/
theorem contract_apply (A : FVec Ideal S256x256 .bf16) (B : FVec Ideal S256x1024 .bf16) (d : Fin 256) (t : Fin 1024) :
    matmul (F := Ideal) dot_S256x256_S256x1024_S256x1024_0_0_1_1_n_n none A B (constant (F := Ideal) S256x1024 .f32 0x00000000#32) (ix2 d t)
      = ∑ k : Fin 256, A (ix2 k d) * B (ix2 k t) := by
  refine (Ideal.matmul_constant_zero_apply dot_S256x256_S256x1024_S256x1024_0_0_1_1_n_n none A B (ix2 d t)).trans ?_
  rw [← Equiv.sum_comp (contrEquiv1 dot_S256x256_S256x1024_S256x1024_0_0_1_1_n_n 256 rfl rfl).symm]
  refine Finset.sum_congr rfl fun k _ => ?_
  have hk := contrEquiv1_symm_val dot_S256x256_S256x1024_S256x1024_0_0_1_1_n_n 256 rfl rfl k
  have el : dot_S256x256_S256x1024_S256x1024_0_0_1_1_n_n.lhsIdx (ix2 d t) ((contrEquiv1 dot_S256x256_S256x1024_S256x1024_0_0_1_1_n_n 256 rfl rfl).symm k) = ix2 k d := funext fun a => Fin.ext (by
    match a with
    | ⟨0, _⟩ => exact (lhs_axis0 _ _).trans hk
    | ⟨1, _⟩ => exact lhs_axis1 _ _)
  have er : dot_S256x256_S256x1024_S256x1024_0_0_1_1_n_n.rhsIdx (ix2 d t) ((contrEquiv1 dot_S256x256_S256x1024_S256x1024_0_0_1_1_n_n 256 rfl rfl).symm k) = ix2 k t := funext fun a => Fin.ext (by
    match a with
    | ⟨0, _⟩ => exact (rhs_axis0 _ _).trans hk
    | ⟨1, _⟩ => exact rhs_axis1 _ _)
  rw [el, er]

/-- Dropping the unit axis of a [1, 256, 256] slice: entry (c, d) is entry (0, c, d). -/
theorem dropUnit_w (Wt : Vec Ideal S1x256x256 .bf16) (k d : Fin 256) :
    shapeCast S256x256 Wt shapeCasts_S1x256x256_S256x256 (ix2 k d) = Wt (ix3 (⟨0, Nat.one_pos⟩ : Fin 1) k d) :=
  (shapeCast_dropUnit_apply ![256, 256] Wt shapeCasts_S1x256x256_S256x256 (ix2 k d)).trans
    (congrArg Wt (funext fun a => match a with | ⟨0, _⟩ => rfl | ⟨1, _⟩ => rfl | ⟨2, _⟩ => rfl))

/-- Dropping the unit axis of a [1, 256, 1024] slice: entry (c, t) is entry (0, c, t). -/
theorem dropUnit_x (Xt : Vec Ideal S1x256x1024 .f32) (k : Fin 256) (t : Fin 1024) :
    shapeCast S256x1024 Xt shapeCasts_S1x256x1024_S256x1024 (ix2 k t) = Xt (ix3 (⟨0, Nat.one_pos⟩ : Fin 1) k t) :=
  (shapeCast_dropUnit_apply ![256, 1024] Xt shapeCasts_S1x256x1024_S256x1024 (ix2 k t)).trans
    (congrArg Xt (funext fun a => match a with | ⟨0, _⟩ => rfl | ⟨1, _⟩ => rfl | ⟨2, _⟩ => rfl))

/-- THE TILE AT AN INDEX: at (0, d, t) the sum over the channel c of Wt[0, c, d] · Xt[0, c, t]. -/
theorem tile_apply (Wt : Vec Ideal S1x256x256 .bf16) (Xt : Vec Ideal S1x256x1024 .f32) (x : S1x256x1024.Idx) :
    k0_pay2 (F := Ideal) Wt Xt x
      = ∑ k : Fin 256, Wt (ix3 (⟨0, Nat.one_pos⟩ : Fin 1) k (⟨(x 1).val, (x 1).isLt⟩ : Fin 256))
          * Xt (ix3 (⟨0, Nat.one_pos⟩ : Fin 1) k (⟨(x 2).val, (x 2).isLt⟩ : Fin 1024)) := by
  unfold k0_pay2 k0_pay1
  refine (shapeCast_addUnit_apply ![256, 1024] _ shapeCasts_S256x1024_S1x256x1024 x).trans ?_
  have ex : (fun a : Fin 2 => x a.succ) = ix2 (⟨(x 1).val, (x 1).isLt⟩ : Fin 256) (⟨(x 2).val, (x 2).isLt⟩ : Fin 1024) :=
    funext fun a => match a with | ⟨0, _⟩ => rfl | ⟨1, _⟩ => rfl
  rw [ex]
  refine (contract_apply _ _ _ _).trans ?_
  refine Finset.sum_congr rfl fun k _ => ?_
  refine congrArg₂ (· * ·) (dropUnit_w Wt k _) ?_
  exact dropUnit_x Xt k _

/-! The other seven stores' payloads are the same term: the printed body names the slices' unit-axis drops separately for
    some of them, which changes nothing. -/

theorem pay3_eq (Wt : Vec Ideal S1x256x256 .bf16) (Xt : Vec Ideal S1x256x1024 .f32) : k0_pay3 (F := Ideal) Wt Xt = k0_pay2 Wt Xt := rfl
theorem pay5_eq (Wt : Vec Ideal S1x256x256 .bf16) (Xt : Vec Ideal S1x256x1024 .f32) : k0_pay5 (F := Ideal) (k0_pay1 Wt) (k0_pay4 Xt) = k0_pay2 Wt Xt := rfl
theorem pay6_eq (Wt : Vec Ideal S1x256x256 .bf16) (Xt : Vec Ideal S1x256x1024 .f32) : k0_pay6 (F := Ideal) (k0_pay1 Wt) Xt = k0_pay2 Wt Xt := rfl
theorem pay8_eq (Wt : Vec Ideal S1x256x256 .bf16) (Xt : Vec Ideal S1x256x1024 .f32) : k0_pay8 (F := Ideal) Wt Xt = k0_pay2 Wt Xt := rfl
theorem pay9_eq (Wt : Vec Ideal S1x256x256 .bf16) (Xt : Vec Ideal S1x256x1024 .f32) : k0_pay9 (F := Ideal) (k0_pay7 Wt) Xt = k0_pay2 Wt Xt := rfl
theorem pay10_eq (Wt : Vec Ideal S1x256x256 .bf16) (Xt : Vec Ideal S1x256x1024 .f32) : k0_pay10 (F := Ideal) (k0_pay7 Wt) Xt = k0_pay2 Wt Xt := rfl
theorem pay11_eq (Wt : Vec Ideal S1x256x256 .bf16) (Xt : Vec Ideal S1x256x1024 .f32) : k0_pay11 (F := Ideal) (k0_pay7 Wt) Xt = k0_pay2 Wt Xt := rfl

end Cert.KernelIdeal.Tile

end
-- ==== Proof.KernelBlock.lean ====
/-
  What one grid point leaves in the output's staging buffer.

  A point handles two batches. For each batch it loads ONE [1, 256, 256] slice of the resident weight table — the row its
  condition word names — and, for each of the four 1024-wide chunks of the time axis, contracts that slice with the chunk
  of the batch's x slab and stores the [1, 256, 1024] tile. The eight tiles are disjoint and fill the [2, 256, 4096] block,
  and each is the restriction of one function of the block index: at (bi, d, t)

      ∑ c, Wsel(bi)[0, c, d] · xblock[bi, c, t],   Wsel(0), Wsel(1) the two loaded table slices.

  A buffer written piece by piece with restrictions of one function holds that function wherever a piece covers.
-/
import proofs.«417675_j14851996910143_3_alg».proof.Proof.Gen.KernelIdeal.Frame
import proofs.«417675_j14851996910143_3_alg».proof.Proof.KernelTile
import Idealize.ShloMosaic.Lib.Tactic

set_option maxRecDepth 16384

noncomputable section

open scoped BigOperators

namespace Cert.KernelIdeal.Block

open Cert.KernelIdeal Cert.KernelIdeal.Gen Idealize.ShloMosaic Idealize.ShloMosaic.TcCoe Idealize.SL.Sem
open Idealize.ShloMosaic.Tactic Idealize.ShloMosaic.ValueIdx

/-- The block as one function of its index: the contraction over the channel of the batch's table slice with the batch's
    x slab. -/
def blockFn (xb : Vec Ideal S2x256x4096 .f32) (Wa Wb : Vec Ideal S1x256x256 .bf16) : S2x256x4096.Idx → Elt Ideal .f32 :=
  fun y => ∑ k : Fin 256, (if (y 0).val = 0 then Wa else Wb) (ix3 (⟨0, Nat.one_pos⟩ : Fin 1) k (⟨(y 1).val, (y 1).isLt⟩ : Fin 256))
    * xb (ix3 (⟨(y 0).val, (y 0).isLt⟩ : Fin 2) k (⟨(y 2).val, (y 2).isLt⟩ : Fin 4096))

/-- ONE TILE IS A RESTRICTION OF THE BLOCK FUNCTION: the tile of batch `bi` and chunk `r`, computed from the batch's
    table slice and the chunk of the batch's x slab, is the block function on the rectangle at (bi, 0, 1024·r). -/
theorem piece_agree (xb : Vec Ideal S2x256x4096 .f32) (Wa Wb : Vec Ideal S1x256x256 .bf16) (bi r : Nat)
    (off : Fin 3 → Nat) (hoff : off = ![bi, 0, 1024 * r]) (inb : ∀ a, off a + S1x256x1024.size a ≤ S2x256x4096.size a)
    (Wl : Vec Ideal S1x256x256 .bf16) (hW : Wl = if bi = 0 then Wa else Wb) (x : S1x256x1024.Idx) :
    k0_pay2 (F := Ideal) Wl (View.ld xb (Rect.unit (s := S2x256x4096) off S1x256x1024.size inb)) x
      = blockFn xb Wa Wb ((Rect.unit (s := S2x256x4096) off S1x256x1024.size inb).emb x) := by
  subst hoff hW
  rw [Tile.tile_apply]
  unfold blockFn
  have hx0 : (x 0).val = 0 := by have h : (x 0).val < 1 := (x 0).isLt; omega
  have e0 : (((Rect.unit (s := S2x256x4096) ![bi, 0, 1024 * r] S1x256x1024.size inb).emb x) 0).val = bi := by
    show bi + 1 * (x 0).val = bi; omega
  have e1 : (((Rect.unit (s := S2x256x4096) ![bi, 0, 1024 * r] S1x256x1024.size inb).emb x) 1).val = (x 1).val := by
    show 0 + 1 * (x 1).val = (x 1).val; omega
  have e2 : (((Rect.unit (s := S2x256x4096) ![bi, 0, 1024 * r] S1x256x1024.size inb).emb x) 2).val = 1024 * r + (x 2).val := by
    show 1024 * r + 1 * (x 2).val = 1024 * r + (x 2).val; omega
  refine Finset.sum_congr rfl fun k _ => ?_
  refine congrArg₂ (· * ·) ?_ ?_
  · rw [e0]
    refine congrArg _ (funext fun a => ?_)
    match a with
    | ⟨0, _⟩ => rfl
    | ⟨1, _⟩ => rfl
    | ⟨2, _⟩ => exact Fin.ext e1.symm
  · show xb ((Rect.unit (s := S2x256x4096) ![bi, 0, 1024 * r] S1x256x1024.size inb).emb (ix3 (⟨0, Nat.one_pos⟩ : Fin 1) k (⟨(x 2).val, (x 2).isLt⟩ : Fin 1024))) = _
    refine congrArg xb (funext fun a => Fin.ext ?_)
    match a with
    | ⟨0, _⟩ => show bi + 1 * 0 = _; rw [e0]; omega
    | ⟨1, _⟩ => show 0 + 1 * k.val = k.val; omega
    | ⟨2, _⟩ => show 1024 * r + 1 * (x 2).val = _; rw [e2]; omega

/-- WHAT A POINT LEAVES: the staging buffer of the output after the body is the block function of the point's x block and
    of the two table slices the body loads at the rows its two condition words name. -/
theorem out_block (c : Dev nD) (i : grid0.Coords) (arg2 : Memref sig .tc .vmem S2x256x4096 .f32) (harg2 : arg2.IsWhole) (arg3 : Memref sig .tc .vmem S16x256x256 .bf16) (harg3 : arg3.IsWhole) (arg4 : Memref sig .tc .vmem S2x256x4096 .f32) (harg4 : arg4.IsWhole)
    (x0 : Vec Ideal S2x256x4096 .f32) (x1 : Vec Ideal S16x256x256 .bf16) (xt0 : TbBuf0 (F := Ideal) c tbM0_0)
    (k0_hw1 : k0_chk1 (tbM0_0.view.readAt (Elt Ideal) (Rect.unit (s := S64) (k0_off1 i) S1.size (k0_off1_inb i)).toLoadRect xt0 (Shape.Idx.first (numel1_S1.symm ▸ Nat.one_pos))))
    (k0_hw2 : k0_chk2 (tbM0_0.view.readAt (Elt Ideal) (Rect.unit (s := S64) (k0_off4 i) S1.size (k0_off4_inb i)).toLoadRect xt0 (Shape.Idx.first (numel1_S1.symm ▸ Nat.one_pos)))) :
    out0_A_2 (F := Ideal) c i arg2 harg2 arg3 harg3 arg4 harg4 x0 x1 xt0 k0_hw1 k0_hw2
      = blockFn x0
          (View.ld x1 (Rect.unit (s := S16x256x256) (k0_off2 (tbM0_0.view.readAt (Elt Ideal) (Rect.unit (s := S64) (k0_off1 i) S1.size (k0_off1_inb i)).toLoadRect xt0 (Shape.Idx.first (numel1_S1.symm ▸ Nat.one_pos)))) S1x256x256.size (k0_off2_inb _ k0_hw1)))
          (View.ld x1 (Rect.unit (s := S16x256x256) (k0_off5 (tbM0_0.view.readAt (Elt Ideal) (Rect.unit (s := S64) (k0_off4 i) S1.size (k0_off4_inb i)).toLoadRect xt0 (Shape.Idx.first (numel1_S1.symm ▸ Nat.one_pos)))) S1x256x256.size (k0_off5_inb _ k0_hw2))) := by
  funext y
  unfold out0_A_2
  refine View.read_writes_apply_of_pieces _ _ (blockFn x0 _ _) _ ?_ y (cover0_A_2 c i arg2 harg2 arg3 harg3 arg4 harg4 x0 x1 xt0 k0_hw1 k0_hw2 y)
  unfold kernelRun0_A
  dsimp only
  sl_unfold_words
  simp only [View.readAt_eq_ld, harg2.read_unread, harg3.read_unread]
  simp only [List.forall_mem_cons]
  refine ⟨?_, ?_, ?_, ?_, ?_, ?_, ?_, ?_, ?_⟩
  · intro x; exact (congrFun (Tile.pay11_eq _ _) x).trans (piece_agree x0 _ _ 1 3 _ rfl _ _ rfl x)
  · intro x; exact (congrFun (Tile.pay10_eq _ _) x).trans (piece_agree x0 _ _ 1 2 _ rfl _ _ rfl x)
  · intro x; exact (congrFun (Tile.pay9_eq _ _) x).trans (piece_agree x0 _ _ 1 1 _ rfl _ _ rfl x)
  · intro x; exact (congrFun (Tile.pay8_eq _ _) x).trans (piece_agree x0 _ _ 1 0 _ rfl _ _ rfl x)
  · intro x; exact (congrFun (Tile.pay6_eq _ _) x).trans (piece_agree x0 _ _ 0 3 _ rfl _ _ rfl x)
  · intro x; exact (congrFun (Tile.pay5_eq _ _) x).trans (piece_agree x0 _ _ 0 2 _ rfl _ _ rfl x)
  · intro x; exact (congrFun (Tile.pay3_eq _ _) x).trans (piece_agree x0 _ _ 0 1 _ rfl _ _ rfl x)
  · intro x; exact piece_agree x0 _ _ 0 0 _ rfl _ _ rfl x
  · intro p hp; exact absurd hp List.not_mem_nil

end Cert.KernelIdeal.Block

end
-- ==== Proof.KernelValue.lean ====
/-
  The idealized kernel's result array is the function `G` of the specification, for every launch memory.

  Grid point t handles batches 2t and 2t + 1. Its x block is rows 2t, 2t + 1 of x; the weight table is staged whole and,
  at the ideal instance, is the weight array itself (the host's change of float format is the identity); the two condition
  words the body reads are entries 2t and 2t + 1 of the prefetched table, which the host computed as the condition array
  clipped word by word. So the table slice loaded for batch 2t + bi is row `row cond (2t + bi)` of the weights, and the
  block the point writes back — the contraction of each batch's slice with the batch's x slab — is `G` read through
  the point's [2, 256, 4096] rectangle at row 2t of the result array. The 32 rectangles cover the array.
-/
import proofs.«417675_j14851996910143_3_alg».proof.Proof.KernelBlock
import proofs.«417675_j14851996910143_3_alg».proof.Proof.ClipTableIdeal
import proofs.«417675_j14851996910143_3_alg».proof.Proof.Spec
import Idealize.ShloMosaic.Lib.Pipeline.Value
import Idealize.ShloMosaic.Lib.StableHlo.Run

set_option maxRecDepth 16384

noncomputable section

open scoped BigOperators

namespace Cert.KernelIdeal.CondValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)
open Cert.CondMatmul (G row clip)

variable (m : (ℓ : Loc nD τ sig) → Buf (Elt Ideal) ℓ) (ρ : Dev nD → PrngReg)

/-- The two side conditions of the generated frame, which hold for every memory. -/
abbrev hO : Ok m := ClipTable.ok m
abbrev hH : Hyps m (hO m) := ClipTable.hyps m (hO m)

/-- The argument arrays on core `c`, at their literal types. -/
abbrev xarr (c : Dev nD) : Vec Ideal S64x256x4096 .f32 := m ((c : Thread nD τ).loc main_arg0)
abbrev warr (c : Dev nD) : Vec Ideal S16x256x256 .f32 := m ((c : Thread nD τ).loc main_arg1)
abbrev carr (c : Dev nD) : S64.Idx → BitVec 32 := m ((c : Thread nD τ).loc main_arg2)

/-- The result the kernel is to leave on core `c`. -/
abbrev Gout (c : Dev nD) : Buf (Elt Ideal) ((c : Thread nD τ).loc main_v2) := G (xarr m c) (warr m c) (carr m c)

/-- The point's x block and the staged table, at their literal types. -/
abbrev xblk (c : Dev nD) (t : Fin (cfgM m (hO m)).N) : Vec Ideal S2x256x4096 .f32 := iblk m (hO m) c 0 t
abbrev wblk (c : Dev nD) (t : Fin (cfgM m (hO m)).N) : Vec Ideal S16x256x256 .bf16 := iblk m (hO m) c 1 t

/-- The index maps and the two table offsets, decided over the 32 grid points: block t of x and of the result, block 0
    of the table, table entries 2t and 2t + 1. -/
theorem grid_facts : ∀ t : Fin grid0.N,
    cc0_transform_0 (grid0.coords t) 0 = t.val ∧ cc0_transform_0 (grid0.coords t) 1 = 0 ∧ cc0_transform_0 (grid0.coords t) 2 = 0
    ∧ cc0_transform_1 (grid0.coords t) 0 = 0 ∧ cc0_transform_1 (grid0.coords t) 1 = 0 ∧ cc0_transform_1 (grid0.coords t) 2 = 0
    ∧ cc0_transform_2 (grid0.coords t) 0 = t.val ∧ cc0_transform_2 (grid0.coords t) 1 = 0 ∧ cc0_transform_2 (grid0.coords t) 2 = 0
    ∧ k0_off1 (grid0.coords t) 0 = 2 * t.val ∧ k0_off4 (grid0.coords t) 0 = 2 * t.val + 1 := by
  decide +kernel

theorem t_lt (t : Fin (cfgM m (hO m)).N) : t.val < 32 := by
  have h : t.val < grid0.N := t.isLt
  rw [N_0] at h; exact h

/-- The x block of point t is rows 2t and 2t + 1 of x. -/
theorem xblk_apply (c : Dev nD) (t : Fin (cfgM m (hO m)).N) (b : Fin 2) (k : Fin 256) (s : Fin 4096) :
    xblk m c t (ix3 b k s) = xarr m c (ix3 (⟨2 * t.val + b.val, by have := t_lt m t; omega⟩ : Fin 64) k s) := by
  obtain ⟨e0, e1, e2, -⟩ := grid_facts t
  show V m c main_arg0 ((((cfgM m (hO m)).win 0).blk t).view.emb (ix3 b k s)) = _
  rw [V_main_arg0]
  refine congrArg _ (funext fun a => Fin.ext ?_)
  match a with
  | ⟨0, _⟩ => show cc0_transform_0 (grid0.coords t) 0 * 2 + 1 * b.val = 2 * t.val + b.val; omega
  | ⟨1, _⟩ => show cc0_transform_0 (grid0.coords t) 1 * 256 + 1 * k.val = k.val; omega
  | ⟨2, _⟩ => show cc0_transform_0 (grid0.coords t) 2 * 4096 + 1 * s.val = s.val; omega

/-- The table as the region finds it: the weight array through the host's change of float format, which at the ideal
    instance is the identity. -/
theorem V_table_apply (c : Dev nD) (z : S16x256x256.Idx) : V m c main_v1 z = warr m c z := by
  have e : (V m c main_v1 : S16x256x256.Idx → EReal)
      = (truncf (F := Ideal) .bf16 (warr m c) bitsLt_bf16_f32 : S16x256x256.Idx → EReal) := by
    unfold V
    simp only [hostOps0, hostOps0_1, hostOps0_2, List.flatten_cons, List.flatten_nil, List.append_nil, List.cons_append,
      List.nil_append]
    after_results
  exact congrFun e z

/-- The staged table is the weight array, entry by entry. -/
theorem wblk_apply (c : Dev nD) (t : Fin (cfgM m (hO m)).N) (r : Fin 16) (k d : Fin 256) :
    wblk m c t (ix3 r k d) = warr m c (ix3 r k d) := by
  obtain ⟨-, -, -, e0, e1, e2, -⟩ := grid_facts t
  show V m c main_v1 ((((cfgM m (hO m)).win 1).blk t).view.emb (ix3 r k d)) = _
  refine (V_table_apply m c _).trans ?_
  refine congrArg (warr m c) (funext fun a => Fin.ext ?_)
  match a with
  | ⟨0, _⟩ => show cc0_transform_1 (grid0.coords t) 0 * 16 + 1 * r.val = r.val; omega
  | ⟨1, _⟩ => show cc0_transform_1 (grid0.coords t) 1 * 256 + 1 * k.val = k.val; omega
  | ⟨2, _⟩ => show cc0_transform_1 (grid0.coords t) 2 * 256 + 1 * d.val = d.val; omega

/-- The one index of a one-entry rectangle at offset `n` of the table is entry `n`. -/
theorem unit_idx (n : Fin 64) (off : Fin 1 → Nat) (hoff : off 0 = n.val) (inb : ∀ a, off a + S1.size a ≤ S64.size a) (h1 : 0 < S1.numel) :
    (Rect.unit (s := S64) off S1.size inb).idx (Shape.Idx.first h1) = ix1 n := by
  funext a
  apply Fin.ext
  match a with
  | ⟨0, _⟩ =>
    show off 0 + 1 * (Shape.Idx.first h1 (0 : Fin 1)).val = n.val
    have h : (Shape.Idx.first h1 (0 : Fin 1)).val < 1 := (Shape.Idx.first h1 (0 : Fin 1)).isLt
    omega

/-- A word the body reads from the table at offset `n` is the condition word of batch `n`, clipped. -/
theorem word_eq (n : Fin 64) (off : Fin 1 → Nat) (hoff : off 0 = n.val) (inb : ∀ a, off a + S1.size a ≤ S64.size a) (h1 : 0 < S1.numel) :
    tbM0_0.view.readAt (Elt Ideal) (Rect.unit (s := S64) off S1.size inb).toLoadRect (tbl m 0) (Shape.Idx.first h1)
      = clip (carr m 0 (ix1 n)) := by
  show tbl m 0 ((Rect.unit (s := S64) off S1.size inb).idx (Shape.Idx.first h1)) = _
  rw [unit_idx n off hoff inb h1, ClipTable.tbl_eq]

/-- THE LOADED TABLE SLICE: the slice the body loads at the row a clipped word names is that row of the weights. -/
theorem wslice_apply (c : Dev nD) (t : Fin (cfgM m (hO m)).N) (w : BitVec 32) (n : Fin 64) (hw : w = clip (carr m c (ix1 n)))
    (off : Fin 3 → Nat) (hoff : off = ![(Scalar.indexCast w).toNat, 0, 0]) (inb : ∀ a, off a + S1x256x256.size a ≤ S16x256x256.size a) (k d : Fin 256) :
    View.ld (wblk m c t) (Rect.unit (s := S16x256x256) off S1x256x256.size inb) (ix3 (⟨0, Nat.one_pos⟩ : Fin 1) k d)
      = warr m c (ix3 (row (carr m c) n) k d) := by
  subst hoff hw
  show wblk m c t ((Rect.unit (s := S16x256x256) ![(Scalar.indexCast (clip (carr m c (ix1 n)))).toNat, 0, 0] S1x256x256.size inb).emb (ix3 (⟨0, Nat.one_pos⟩ : Fin 1) k d)) = _
  have e : (Rect.unit (s := S16x256x256) ![(Scalar.indexCast (clip (carr m c (ix1 n)))).toNat, 0, 0] S1x256x256.size inb).emb (ix3 (⟨0, Nat.one_pos⟩ : Fin 1) k d)
      = ix3 (row (carr m c) n) k d := by
    refine funext fun a => Fin.ext ?_
    match a with
    | ⟨0, _⟩ => show (Scalar.indexCast (clip (carr m c (ix1 n)))).toNat + 1 * 0 = (clip (carr m c (ix1 n))).toNat; show (clip (carr m c (ix1 n))).toNat + 1 * 0 = _; omega
    | ⟨1, _⟩ => show 0 + 1 * k.val = k.val; omega
    | ⟨2, _⟩ => show 0 + 1 * d.val = d.val; omega
  rw [e, wblk_apply]

/-- FROM THE BLOCK FUNCTION TO `G`: with the x block rows 2t, 2t + 1 of x and the two table slices rows
    `row cond (2t)`, `row cond (2t + 1)` of the weights, the block function at (bi, d, s) is `G` at (2t + bi, d, s). -/
theorem block_is_G (xs : Vec Ideal S64x256x4096 .f32) (ws : Vec Ideal S16x256x256 .f32) (cond : S64.Idx → BitVec 32) (t : Nat) (ht : t < 32)
    (xb : Vec Ideal S2x256x4096 .f32)
    (hxb : ∀ (b : Fin 2) (k : Fin 256) (s : Fin 4096), xb (ix3 b k s) = xs (ix3 (⟨2 * t + b.val, by omega⟩ : Fin 64) k s))
    (Wa Wb : Vec Ideal S1x256x256 .bf16)
    (hWa : ∀ k d : Fin 256, Wa (ix3 (⟨0, Nat.one_pos⟩ : Fin 1) k d) = ws (ix3 (row cond ⟨2 * t, by omega⟩) k d))
    (hWb : ∀ k d : Fin 256, Wb (ix3 (⟨0, Nat.one_pos⟩ : Fin 1) k d) = ws (ix3 (row cond ⟨2 * t + 1, by omega⟩) k d))
    (y : S2x256x4096.Idx) (j : S64x256x4096.Idx) (hj0 : (j 0).val = 2 * t + (y 0).val) (hj1 : (j 1).val = (y 1).val) (hj2 : (j 2).val = (y 2).val) :
    Block.blockFn xb Wa Wb y = G xs ws cond j := by
  unfold Block.blockFn G
  have hy0 : (y 0).val < 2 := (y 0).isLt
  refine Finset.sum_congr rfl fun k _ => ?_
  have hx : xb (ix3 (⟨(y 0).val, (y 0).isLt⟩ : Fin 2) k (⟨(y 2).val, (y 2).isLt⟩ : Fin 4096))
      = xs (ix3 (⟨(j 0).val, (j 0).isLt⟩ : Fin 64) k (⟨(j 2).val, (j 2).isLt⟩ : Fin 4096)) := by
    rw [hxb]
    refine congrArg xs (funext fun a => ?_)
    match a with
    | ⟨0, _⟩ => exact Fin.ext hj0.symm
    | ⟨1, _⟩ => rfl
    | ⟨2, _⟩ => exact Fin.ext hj2.symm
  rw [hx]
  refine congrArg (· * _) ?_
  by_cases h0 : (y 0).val = 0
  · rw [if_pos h0, hWa]
    have eb : (⟨(j 0).val, (j 0).isLt⟩ : Fin 64) = ⟨2 * t, by omega⟩ := Fin.ext (by show (j 0).val = 2 * t; omega)
    rw [eb]
    refine congrArg ws (funext fun a => ?_)
    match a with
    | ⟨0, _⟩ => rfl
    | ⟨1, _⟩ => rfl
    | ⟨2, _⟩ => exact Fin.ext hj1.symm
  · rw [if_neg h0, hWb]
    have eb : (⟨(j 0).val, (j 0).isLt⟩ : Fin 64) = ⟨2 * t + 1, by omega⟩ := Fin.ext (by show (j 0).val = 2 * t + 1; omega)
    rw [eb]
    refine congrArg ws (funext fun a => ?_)
    match a with
    | ⟨0, _⟩ => rfl
    | ⟨1, _⟩ => rfl
    | ⟨2, _⟩ => exact Fin.ext hj1.symm

/-- WHAT POINT `t` WRITES BACK is block `t` of `G` of the argument arrays. -/
theorem flushed_eq (c : Dev nD) (t : Fin (cfgM m (hO m)).N) :
    (dats m (hO m) (hH m) 0 c).flushed 2 t = (((cfgM m (hO m)).win 2).blk t).view.read (Elt Ideal) (Gout m c) := by
  obtain rfl : c = 0 := Subsingleton.elim _ _
  obtain ⟨-, -, -, -, -, -, e0, e1, e2, o1, o4⟩ := grid_facts t
  have ht := t_lt m t
  show ((cfgM m (hO m)).win 2).cut (grid0.coords t) ((dats m (hO m) (hH m) 0 0).after 2 t) = _
  rw [after0_2]
  unfold outsAt0
  refine funext fun (y : S2x256x4096.Idx) => ?_
  show out0_A_2 (F := Ideal) 0 (grid0.coords t) (ms0_0 m (hO m) t) (hs0_0 m (hO m) t) (ms0_1 m (hO m) t) (hs0_1 m (hO m) t)
      (ms0_2 m (hO m) t) (hs0_2 m (hO m) t) (xblk m 0 t) (wblk m 0 t) (tbl m 0) (Hyps.c0 (hH m) 0 t) (Hyps.c1 (hH m) 0 t) y
    = Gout m 0 ((((cfgM m (hO m)).win 2).blk t).view.emb y)
  refine (congrFun (Block.out_block 0 (grid0.coords t) (ms0_0 m (hO m) t) (hs0_0 m (hO m) t) (ms0_1 m (hO m) t) (hs0_1 m (hO m) t)
      (ms0_2 m (hO m) t) (hs0_2 m (hO m) t) (xblk m 0 t) (wblk m 0 t) (tbl m 0) (Hyps.c0 (hH m) 0 t) (Hyps.c1 (hH m) 0 t)) y).trans ?_
  refine block_is_G (xarr m 0) (warr m 0) (carr m 0) t.val ht (xblk m 0 t) (xblk_apply m 0 t) _ _ ?_ ?_ y _ ?_ ?_ ?_
  · intro k d
    exact wslice_apply m 0 t _ ⟨2 * t.val, by omega⟩ (word_eq m ⟨2 * t.val, by omega⟩ _ o1 _ _) _ rfl _ k d
  · intro k d
    exact wslice_apply m 0 t _ ⟨2 * t.val + 1, by omega⟩ (word_eq m ⟨2 * t.val + 1, by omega⟩ _ o4 _ _) _ rfl _ k d
  · show cc0_transform_2 (grid0.coords t) 0 * 2 + 1 * (y 0).val = 2 * t.val + (y 0).val; omega
  · show cc0_transform_2 (grid0.coords t) 1 * 256 + 1 * (y 1).val = (y 1).val; omega
  · show cc0_transform_2 (grid0.coords t) 2 * 4096 + 1 * (y 2).val = (y 2).val; omega

/-- The rectangle of the result array that point `t` writes back, at the array's literal shape. -/
abbrev orect (t : Fin (cfgM m (hO m)).N) : Rect S64x256x4096 := ((cfgM m (hO m)).win 2).rect t

/-- An index of the result array is in point `t`'s block iff each coordinate is in the block's range on its axis. -/
theorem mem_blk (t : Fin (cfgM m (hO m)).N) (i : S64x256x4096.Idx) :
    i ∈ (((cfgM m (hO m)).win 2).blk t).view.set ↔ ∀ a : Fin 3, cc0_transform_2 (grid0.coords t) a * S2x256x4096.size a ≤ (i a).val ∧ (i a).val < cc0_transform_2 (grid0.coords t) a * S2x256x4096.size a + S2x256x4096.size a := by
  refine Iff.trans (Eq.to_iff (congrArg (fun s : Finset S64x256x4096.Idx => i ∈ s) (View.set_slice_whole main_v2 (orect m t)))) ?_
  exact Rect.mem_set_unit

/-- The 32 blocks cover the result array: index (b, d, s) lies in the block of point b / 2. -/
theorem cover (i : S64x256x4096.Idx) :
    ∃ t : Fin (cfgM m (hO m)).N, ((cfgM m (hO m)).win 2).flush t = true ∧ i ∈ (((cfgM m (hO m)).win 2).blk t).view.set := by
  have hi0 : (i 0).val < 64 := (i 0).isLt
  have hi1 : (i 1).val < 256 := (i 1).isLt
  have hi2 : (i 2).val < 4096 := (i 2).isLt
  have hN : (cfgM m (hO m)).N = 32 := N_0
  let t : Fin (cfgM m (hO m)).N := ⟨(i 0).val / 2, by rw [hN]; omega⟩
  obtain ⟨-, -, -, -, -, -, e0, e1, e2, -⟩ := grid_facts t
  have htv : t.val = (i 0).val / 2 := rfl
  refine ⟨t, flush0_2 (adm m (hO m)) t, (mem_blk m t i).mpr ?_⟩
  intro a
  match a with
  | ⟨0, _⟩ => show cc0_transform_2 (grid0.coords t) 0 * 2 ≤ (i 0).val ∧ (i 0).val < cc0_transform_2 (grid0.coords t) 0 * 2 + 2; omega
  | ⟨1, _⟩ => show cc0_transform_2 (grid0.coords t) 1 * 256 ≤ (i 1).val ∧ (i 1).val < cc0_transform_2 (grid0.coords t) 1 * 256 + 256; omega
  | ⟨2, _⟩ => show cc0_transform_2 (grid0.coords t) 2 * 4096 ≤ (i 2).val ∧ (i 2).val < cc0_transform_2 (grid0.coords t) 2 * 4096 + 4096; omega

/-- THE RESULT ARRAY after the run is `G` of the argument arrays. -/
theorem final (c : Dev nD) : (dats m (hO m) (hH m) 0 c).arrAt 2 (cfgM m (hO m)).N = Gout m c :=
  (dats m (hO m) (hH m) 0 c).arrAt_eq_of_cover 2 (Gout m c) (fun t _ => flushed_eq m c t) (cover m)

/-- The frame run re-posted: the result array at `G` of the arguments, the arguments unchanged. -/
theorem run : θ_run defs (onTc (τ := τ) (main (F := Ideal))) ⟨m, fun _ => 0, ρ⟩ fun r => ∀ c : Dev nD,
      r.2.mem ((c.tc : Thread nD τ).loc main_v2) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 2).trans (final m c),
      ((h c).1 0).trans (((dats m (hO m) (hH m) 0 c).arrAt_in 0 rfl _).trans ((A_eq m (hO m) (hH m) c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩)
    (run_main m ρ (hO m) (hH m))

end Cert.KernelIdeal.CondValue

end
-- ==== Proof.RefValue.lean ====
/-
  The reference's result is the function `G` of the specification, for a condition array with no negative word.

  The reference first adds 16 to the negative condition words, then gathers one [256, 256] slice of the weight table per
  batch — the gather reads each start index as a signed integer and clamps it so that the slice fits, that is into
  [0, 15] — and contracts the gathered slices with x over the input channels, batch by batch. Read at an index (b, d, t)
  the contraction is the sum over c of gathered[b, c, d] · x[b, c, t], and gathered[b, c, d] is W[r, c, d] with r the
  clamped start index of batch b. For a word that is not negative the wrap leaves it alone and the clamp is the clip.
-/
import proofs.«417675_j14851996910143_3_alg».proof.Proof.Gen.ReferenceIdeal.Read
import proofs.«417675_j14851996910143_3_alg».proof.Proof.Spec

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx

variable {F : FTy → Type} [FloatOps F]

local notation "gdims" => gather_S16x256x256_S64x1_S64x256x256_12_0_n_n_0_1_1256256

/-- The start-indices index [b, 0] of batch `b`. -/
abbrev startAt (b : Fin 64) : S64x1.Idx := ix2 b (⟨0, Nat.one_pos⟩ : Fin 1)

/-- The operand row the gather reads for batch `j 0`: the signed start index, clamped so that one row fits. -/
theorem operand_row (idx : IVec S64x1 32) (j : S64x256x256.Idx) :
    GatherDims.start gdims j idx 0 + GatherDims.batchCoord gdims j 0 + GatherDims.offCoord gdims j 0
      = min (idx (startAt ⟨(j 0).val, (j 0).isLt⟩)).toInt.toNat 15 := by
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (0 : Fin 3) ∈ (GatherDims.startIndexMap gdims) from List.mem_singleton.mpr rfl)]
  have hsi : GatherDims.siIdx gdims j ⟨List.idxOf (0 : Fin 3) (GatherDims.startIndexMap gdims),
      List.idxOf_lt_length_iff.2 (List.mem_singleton.mpr rfl)⟩ = startAt ⟨(j 0).val, (j 0).isLt⟩ := by
    funext b; refine Fin.ext ?_
    match b with
    | ⟨0, _⟩ => rfl
    | ⟨1, _⟩ => rfl
  rw [hsi]
  rfl

/-- On the table's second axis the gather reads the result's own coordinate. -/
theorem operand_chan (idx : IVec S64x1 32) (j : S64x256x256.Idx) :
    GatherDims.start gdims j idx 1 + GatherDims.batchCoord gdims j 1 + GatherDims.offCoord gdims j 1 = (j 1).val := by
  rw [GatherDims.batchCoord_eq_zero _ _ _ List.not_mem_nil, Nat.add_zero]
  unfold GatherDims.start
  rw [dif_neg (show ¬ (1 : Fin 3) ∈ (GatherDims.startIndexMap gdims) by decide), Nat.zero_add]
  unfold GatherDims.offCoord
  rw [dif_pos (show (1 : Fin 3) ∈ (GatherDims.sKept gdims) by decide)]
  rfl

/-- On the table's third axis likewise. -/
theorem operand_out (idx : IVec S64x1 32) (j : S64x256x256.Idx) :
    GatherDims.start gdims j idx 2 + GatherDims.batchCoord gdims j 2 + GatherDims.offCoord gdims j 2 = (j 2).val := by
  rw [GatherDims.batchCoord_eq_zero _ _ _ List.not_mem_nil, Nat.add_zero]
  unfold GatherDims.start
  rw [dif_neg (show ¬ (2 : Fin 3) ∈ (GatherDims.startIndexMap gdims) by decide), Nat.zero_add]
  unfold GatherDims.offCoord
  rw [dif_pos (show (2 : Fin 3) ∈ (GatherDims.sKept gdims) by decide)]
  rfl

/-- The gather read at (b, c, d): the table at row `min (signed start index of batch b) 15`, and at (c, d). -/
theorem gather_apply {α : Type} (x : S16x256x256.Idx → α) (idx : IVec S64x1 32) (j : S64x256x256.Idx) :
    Host.gather gdims x idx j
      = x (ix3 (⟨min (idx (startAt ⟨(j 0).val, (j 0).isLt⟩)).toInt.toNat 15, by omega⟩ : Fin 16)
            (⟨(j 1).val, (j 1).isLt⟩ : Fin 256) (⟨(j 2).val, (j 2).isLt⟩ : Fin 256)) := by
  unfold Host.gather
  congr 1
  funext a
  refine Fin.ext ?_
  match a with
  | ⟨0, _⟩ => exact operand_row idx j
  | ⟨1, _⟩ => exact operand_chan idx j
  | ⟨2, _⟩ => exact operand_out idx j

/-- The start index of batch `b` as the reference computes it: the condition word, 16 added when it is negative. -/
theorem start_apply (x2 : (⟨S64, .i32⟩ : BufTy).Contents (Elt F)) (b : Fin 64) :
    Read.val_main_v5 (F := F) x2 (startAt b)
      = Scalar.select (IntOp.cmpi .slt (x2 (ix1 b)) 0#32) (IntOp.addi (x2 (ix1 b)) 16#32) (x2 (ix1 b)) := by
  have e : Read.idx_main_v5 (startAt b) = ix1 b := funext fun a => match a with | ⟨0, _⟩ => rfl
  rw [Read.val_main_v5_apply, e]
  rfl

/-- THE REFERENCE IS `G`, for a condition array with no negative word. -/
theorem ref_eq_G (x0 : (⟨S64x256x4096, .f32⟩ : BufTy).Contents (Elt Ideal)) (x1 : (⟨S16x256x256, .f32⟩ : BufTy).Contents (Elt Ideal))
    (x2 : (⟨S64, .i32⟩ : BufTy).Contents (Elt Ideal)) (hpos : ∀ i, IntOp.cmpi .sge (x2 i) 0#32 = 1#1) :
    Read.val_main_v7 (F := Ideal) x0 x1 x2 = Cert.CondMatmul.G x0 x1 x2 := by
  funext i
  rw [Read.val_main_v7_apply]
  unfold Cert.CondMatmul.G
  refine Finset.sum_congr rfl fun k _ => ?_
  refine congrArg₂ (· * ·) ?_ ?_
  · unfold Read.val_main_v6
    rw [gather_apply]
    refine congrArg x1 ?_
    funext a
    match a with
    | ⟨0, _⟩ =>
      refine Fin.ext ?_
      show min (Read.val_main_v5 (F := Ideal) x2 (startAt ⟨(i 0).val, (i 0).isLt⟩)).toInt.toNat 15 = _
      rw [start_apply]
      exact Cert.CondMatmul.wrap_clamp_eq_clip _ (hpos _)
    | ⟨1, _⟩ => rfl
    | ⟨2, _⟩ => rfl
  · refine congrArg x0 ?_
    funext a
    match a with
    | ⟨0, _⟩ => rfl
    | ⟨1, _⟩ => rfl
    | ⟨2, _⟩ => rfl

end Cert.ReferenceIdeal.RefValue

end
-- ==== Proof.PreDecode.lean ====
/-
  What the precondition says of the condition array: no word of it is negative.

  The precondition is the conjunction of three "all" tests, each printed as a reduction by `and` from the constant 1:
  every entry of x finite, every entry of the weights finite, and every condition word at least 0 as a signed integer. A
  conjunction that is 1 has its last conjunct 1, and a reduction by `and` over all axes that came out 1 met a 1 at every
  index.
-/
import proofs.«417675_j14851996910143_3_alg».proof.Proof.Gen.Pre_finite_inputs
import Idealize.ShloMosaic.Lib.ReduceAll
import Idealize.ShloMosaic.Lib.ValueIdx

noncomputable section

namespace Cert.Pre_finite_inputs.Decode

open Cert.Pre_finite_inputs Cert.Pre_finite_inputs.Gen Idealize.ShloMosaic

instance : Subsingleton S_.Idx := ⟨fun a b => funext fun d => d.elim0⟩

/-- Under the precondition every condition word is non-negative, signed. -/
theorem cond_nonneg {F : FTy → Type} [FloatOps F] (x0 : FVec F S64x256x4096 .f32) (x1 : FVec F S16x256x256 .f32) (x2 : IVec S64 32)
    (h : fn (F := F) x0 x1 x2 = fun _ => 1#1) (i : S64.Idx) : IntOp.cmpi .sge (x2 i) 0#32 = 1#1 := by
  have e := congrFun h ValueIdx.ix0
  dsimp only [fn] at e
  have e2 := (IntOp.andi_eq_one.mp e).2
  exact Host.reduce_andi_all _ _ _ _ _ e2 i

end Cert.Pre_finite_inputs.Decode

end
-- ==== Proof.lean ====
/-
  Equivalence over the extended reals of a conditional batched contraction against its reference.

  Inputs x : f32[64, 256, 4096], weights : f32[16, 256, 256], condition : i32[64]. Both programs compute

      out[b, d, t] = ∑ c, weights[r(b)][c, d] · x[b, c, t],

  and differ only in how batch b's table row r(b) is chosen from its condition word. The kernel clips the word into
  [0, 15] (signed maximum with 0, then signed minimum with 15) on the host, prefetches the clipped words, and at each of
  its 32 grid points contracts, for two batches and four 1024-wide chunks of t each, the batch's [256, 256] table slice
  with the chunk of the batch's x slab — eight disjoint tiles that fill the point's [2, 256, 4096] block. The reference
  adds 16 to a negative word, gathers (the gather clamps the signed start index into [0, 15]) and contracts batch by
  batch. For a word that is not negative the two choices agree: the wrap leaves it alone, and clamping a non-negative
  integer into [0, 15] is what the clip does. For a word in [-15, -1] they do not (the reference reads row word + 16,
  the kernel row 0), which is why the precondition asks for condition ≥ 0 beside finite floats. The float inputs'
  finiteness is not used: the two sums have the same terms in the same order, and a change of float format is the
  identity at the ideal instance.

  The frames of the two kernel programs are the generated ones; their side conditions — every table word the body reads
  names a row of the 16-row table — hold for every memory, because the table is the clipped condition array. The
  reference's frame is its run with the result dropped. The ideal pass rewrote nothing, so `preserves` is `True`.
-/
import proofs.«417675_j14851996910143_3_alg».proof.Defs
import proofs.«417675_j14851996910143_3_alg».proof.Proof.Gen.Kernel
import proofs.«417675_j14851996910143_3_alg».proof.Proof.Gen.Kernel.Frame
import proofs.«417675_j14851996910143_3_alg».proof.Proof.Gen.KernelIdeal
import proofs.«417675_j14851996910143_3_alg».proof.Proof.Gen.KernelIdeal.Frame
import proofs.«417675_j14851996910143_3_alg».proof.Proof.Gen.ReferenceIdeal
import proofs.«417675_j14851996910143_3_alg».proof.Proof.Gen.ReferenceIdeal.Run
import proofs.«417675_j14851996910143_3_alg».proof.Proof.Gen.ReferenceIdeal.Read
import proofs.«417675_j14851996910143_3_alg».proof.Proof.Gen.Pre_finite_inputs
import proofs.«417675_j14851996910143_3_alg».proof.Proof.ClipTableBits
import proofs.«417675_j14851996910143_3_alg».proof.Proof.ClipTableIdeal
import proofs.«417675_j14851996910143_3_alg».proof.Proof.KernelValue
import proofs.«417675_j14851996910143_3_alg».proof.Proof.RefValue
import proofs.«417675_j14851996910143_3_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame, its side conditions from the clip. -/
theorem frame_k : Cert.frame_Kernel := fun m ρ _ =>
  Cert.Kernel.Gen.frame m ρ (Cert.Kernel.ClipTable.ok m) (Cert.Kernel.ClipTable.hyps m _)

/-- The idealized kernel likewise. -/
theorem frame_ki : Cert.frame_KernelIdeal := fun m ρ _ =>
  Cert.KernelIdeal.Gen.frame m ρ (Cert.KernelIdeal.ClipTable.ok m) (Cert.KernelIdeal.ClipTable.hyps m _)

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the result array at `G` of the arguments: the kernel for every memory, the
    reference because under the precondition no condition word is negative. -/
theorem algebraic : Cert.algebraic_KernelIdeal_ReferenceIdeal := by
  intro m ρ m' ρ' hpre hagree
  refine ⟨fun c => Cert.KernelIdeal.CondValue.Gout m c, Cert.KernelIdeal.CondValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, (hagree c).1, (hagree c).2.1, (hagree c).2.2]
  exact Cert.ReferenceIdeal.RefValue.ref_eq_G _ _ _ (Cert.Pre_finite_inputs.Decode.cond_nonneg _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
